-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S192x128 : Shape := ⟨2, ![192, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S192x128 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S192x128 .f32 := Host.absf main_arg6
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S100000x128 .f32) (main_arg2 : IVec S1600000 32) (main_arg3 : IVec S1600000 32) (main_arg4 : FVec F S128x64 .f32) (main_arg5 : FVec F S64 .f32) (main_arg6 : FVec F S192x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S192x128 : Shape := ⟨2, ![192, 128]⟩
abbrev S128 : Shape := ⟨1, ![128]⟩
abbrev S100000x64 : Shape := ⟨2, ![100000, 64]⟩
abbrev S5000x128 : Shape := ⟨2, ![5000, 128]⟩
abbrev S5000x64 : Shape := ⟨2, ![5000, 64]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S128x128 : Shape := ⟨2, ![128, 128]⟩
abbrev S64x128 : Shape := ⟨2, ![64, 128]⟩
abbrev S1x128 : Shape := ⟨2, ![1, 128]⟩

abbrev nBuf : Space → Nat
  | .hbm => 43
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S64, .f32⟩
  | .hbm, ⟨6, _⟩ => ⟨S192x128, .f32⟩
  | .hbm, ⟨7, _⟩ => ⟨S128, .f32⟩
  | .hbm, ⟨8, _⟩ => ⟨S100000x64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S1600000x1, .f32⟩
  | .hbm, ⟨34, _⟩ => ⟨S1600000x64, .f32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S128x128, .f32⟩
  | .hbm, ⟨41, _⟩ => ⟨S64x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x128, .f32⟩
  | .local _ .vmem, ⟨7, _⟩ => ⟨S5000x128, .f32⟩
  | .local _ .vmem, ⟨8, _⟩ => ⟨S5000x64, .f32⟩
  | .local _ .vmem, ⟨9, _⟩ => ⟨S5000x64, .f32⟩
  | .local _ .vmem, ⟨10, _⟩ => ⟨S128x128, .f32⟩
  | .local _ .vmem, ⟨11, _⟩ => ⟨S64x128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S192x128_S128x128_0_0 : S192x128.Slices ![0, 0] S128x128
  slices_S192x128_S64x128_128_0 : S192x128.Slices ![128, 0] S64x128
  shapeCasts_S5000x64_S5000x64 : S5000x64.ShapeCasts S5000x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S5000x128_S128x64_S5000x64_1_0_0_1_n_n_wf : DotDims.WF S5000x128 S128x64 S5000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S5000x128_S128x128_S5000x128_1_0_0_1_n_n_wf : DotDims.WF S5000x128 S128x128 S5000x128 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S192x128 : Shape := ⟨2, ![192, 128]⟩
abbrev S128 : Shape := ⟨1, ![128]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x192 : Shape := ⟨2, ![100000, 192]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S64, .f32⟩
  | .hbm, ⟨6, _⟩ => ⟨S192x128, .f32⟩
  | .hbm, ⟨7, _⟩ => ⟨S128, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S100000x64, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x192, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  concatenates_S100000x128_S100000x64_S100000x192_d1 : Shape.Concatenates [S100000x128, S100000x64] S100000x192 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S100000x192_S192x128_S100000x128_1_0_0_1_n_n_wf : DotDims.WF S100000x192 S192x128 S100000x128 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.PoolValue.lean ====
/-
  The first dense stage, read as one array. Its grid walks the 100000 rows of the node features in 20 blocks of 5000;
  at block t the body multiplies rows 5000·t … 5000·t + 4999 of h with the whole of W_pool, adds the bias b_pool
  along every row and clamps at zero. Every block is therefore the restriction of ONE function of (h, W_pool, b_pool),

      pool h W b (r, c) = max (∑ k < 128, h (r, k) · W (k, c) + b c) 0,

  and the 20 blocks tile the [100000, 64] result, so after the region the result array holds `pool` of the arrays the
  region was entered with. The contraction is the exact sum on the extended reals; the narrowing of both factors
  to bf16 is the identity there.
-/
import proofs.«102712_j128849019138_1_alg».proof.Proof.Gen.KernelIdeal.Frame
import proofs.«102712_j128849019138_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- The pooled features: row r, column c is the clamped affine image of row r of the node features. -/
def pool (x : FVec Ideal S100000x128 .f32) (w : FVec Ideal S128x64 .f32) (b : FVec Ideal S64 .f32) : FVec Ideal S100000x64 .f32 :=
  fun i => FloatOps.maximumf (FloatOps.addf (∑ k : Fin 128, x (ix2 (i 0) k) * w (ix2 k (i 1))) (b (ix1 (i 1)))) (FloatOps.ofBits .f32 0x00000000#32)

/-- The bias, a [64] vector laid out as one row and repeated down the block, read at (p, q), is its q-th entry. -/
theorem bias_row (x2 : Vec Ideal S64 .f32) (p : Fin 5000) (q : Fin 64) :
    broadcastTo S5000x64 (shapeCast S1x64 x2 shapeCasts_S64_S1x64) broadcasts_S1x64_S5000x64 (ix2 p q) = x2 (ix1 q) := by
  rw [broadcastTo_apply _ broadcasts_S1x64_S5000x64 (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])]
  rw [shapeCast_addUnit_apply ![64] x2 shapeCasts_S64_S1x64 (ix2 (0 : Fin 1) q)]
  exact congrArg x2 (funext fun a => match a with | ⟨0, _⟩ => rfl)

/-- What the body stores, at entry (p, q) of its block: the clamped sum over the 128 input features plus the bias. -/
theorem stored_apply (x0 : Vec Ideal S5000x128 .f32) (x1 : Vec Ideal S128x64 .f32) (x2 : Vec Ideal S64 .f32) (p : Fin 5000) (q : Fin 64) :
    k0_pay1 (F := Ideal) x0 x1 x2 (ix2 p q)
      = FloatOps.maximumf (FloatOps.addf (∑ k : Fin 128, x0 (ix2 p k) * x1 (ix2 k q)) (x2 (ix1 q))) (FloatOps.ofBits .f32 0x00000000#32) := by
  unfold k0_pay1
  refine congrArg₂ FloatOps.maximumf (congrArg₂ FloatOps.addf ?_ ?_) rfl
  · exact Cert.PlainDot.matmul_zero_apply (M := 5000) (K := 128) (N := 64) dot_S5000x128_S128x64_S5000x64_1_0_0_1_n_n rfl none x0 x1 (ix2 p q)
  · exact bias_row x2 p q

/-- A block whose rows are rows r₀ + p of the features, with the whole weight matrix and bias, stores the
    pooled features of row r₀ + p. -/
theorem stored_eq_pool (X : FVec Ideal S100000x128 .f32) (W : FVec Ideal S128x64 .f32) (B : FVec Ideal S64 .f32)
    (x0 : Vec Ideal S5000x128 .f32) (x1 : Vec Ideal S128x64 .f32) (x2 : Vec Ideal S64 .f32)
    (r : Fin 100000) (p : Fin 5000) (q : Fin 64)
    (h0 : ∀ k : Fin 128, x0 (ix2 p k) = X (ix2 r k)) (h1 : ∀ (k : Fin 128), x1 (ix2 k q) = W (ix2 k q)) (h2 : x2 (ix1 q) = B (ix1 q)) :
    k0_pay1 (F := Ideal) x0 x1 x2 (ix2 p q) = pool X W B (ix2 r q) := by
  rw [stored_apply]
  show _ = FloatOps.maximumf (FloatOps.addf (∑ k : Fin 128, X (ix2 r k) * W (ix2 k q)) (B (ix1 q))) (FloatOps.ofBits .f32 0x00000000#32)
  rw [h2]
  refine congrArg₂ FloatOps.maximumf (congrArg₂ FloatOps.addf (Finset.sum_congr rfl fun k _ => ?_) rfl) rfl
  rw [h0 k, h1 k]

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the feature and result windows sit at block row t, the weights and the
    bias at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT t WRITES BACK is block t of the pooled features of the arrays the region was entered with. -/
theorem flushed_eq (c : Dev nD) (t : Fin cfg0.N) :
    (dat0 V c).flushed 3 t = ((cfg0.win 3).blk t).view.read (Elt Ideal) (pool (V c main_arg0) (V c main_arg4) (V c main_arg5)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x64) hz2, View.ld_unit_zero (S := S64) hz1]
  obtain ⟨e00, e01, e10, e11, e20, e30, e31⟩ := idx_facts t
  have ht : t.val < 20 := t.isLt
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hemb : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show k0_pay1 (F := Ideal) (iblk0 V c 0 t) (iblk0 V c 1 t) (iblk0 V c 2 t) (ix2 p q)
    = pool (V c main_arg0) (V c main_arg4) (V c main_arg5) (((cfg0.win 3).blk t).view.emb (ix2 p q))
  rw [hemb]
  refine stored_eq_pool (V c main_arg0) (V c main_arg4) (V c main_arg5) _ _ _ ⟨t.val * 5000 + p.val, by omega⟩ p q ?_ ?_ ?_
  · intro k
    show V c main_arg0 (((cfg0.win 0).blk t).view.emb (ix2 p k)) = V c main_arg0 (ix2 (⟨t.val * 5000 + p.val, by omega⟩ : Fin 100000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_arg4 (((cfg0.win 1).blk t).view.emb (ix2 k q)) = V c main_arg4 (ix2 k q)
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · show V c main_arg5 (((cfg0.win 2).blk t).view.emb (ix1 q)) = V c main_arg5 (ix1 q)
    refine congrArg (V c main_arg5) (funext fun a => Fin.ext ?_)
    match a with
    | ⟨0, _⟩ => show win0_2.index t (0 : Fin 1) * 64 + 1 * q.val = q.val; omega

/-- An index of the result array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- The 20 blocks of 5000 rows tile the result: row r lies in block r / 5000. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, -, e30, e31⟩ := idx_facts t
  have etv : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE RESULT ARRAY after the region: the pooled features of the arrays the region was entered with. -/
theorem pool_array (c : Dev nD) :
    (dat0 V c).arrAt 3 cfg0.N = pool (V c main_arg0) (V c main_arg4) (V c main_arg5) :=
  (dat0 V c).arrAt_eq_of_cover 3 _ (fun t _ => flushed_eq V c t) covered

end Cert.KernelIdeal.PoolValue

end
-- ==== Proof.NeighValue.lean ====
/-
  The second dense stage, read as one array. Its grid again walks 100000 rows in 20 blocks of 5000; at block t the
  body multiplies rows 5000·t … of the self features with the upper 128 rows of the weight matrix, the same rows of
  the aggregated neighbour features with its lower 64 rows, adds the two products and then the bias along every
  row. Every block is the restriction of ONE function of the five arrays the region reads,

      neigh s a W₁ W₂ b (r, c) = (∑ k < 128, s (r, k) · W₁ (k, c) + ∑ k < 64, a (r, k) · W₂ (k, c)) + b c,

  and the 20 blocks tile the [100000, 128] result, so after the region the result array holds `neigh` of the
  arrays the region was entered with. Both contractions are exact sums on the extended reals; the narrowing of the
  factors to bf16 is the identity there, and a cast of an array to its own shape changes nothing.
-/
import proofs.«102712_j128849019138_1_alg».proof.Proof.Gen.KernelIdeal.Frame
import proofs.«102712_j128849019138_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.NeighValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- The dense output: row r, column c is the affine image of row r of the self features and of the aggregate. -/
def neigh (s : FVec Ideal S100000x128 .f32) (a : FVec Ideal S100000x64 .f32) (w1 : FVec Ideal S128x128 .f32)
    (w2 : FVec Ideal S64x128 .f32) (b : FVec Ideal S128 .f32) : FVec Ideal S100000x128 .f32 :=
  fun i => FloatOps.addf (FloatOps.addf (∑ k : Fin 128, s (ix2 (i 0) k) * w1 (ix2 k (i 1))) (∑ k : Fin 64, a (ix2 (i 0) k) * w2 (ix2 k (i 1)))) (b (ix1 (i 1)))

/-- The bias, a [128] vector laid out as one row and repeated down the block, read at (p, q), is its q-th entry. -/
theorem bias_row (x4 : Vec Ideal S128 .f32) (p : Fin 5000) (q : Fin 128) :
    broadcastTo S5000x128 (shapeCast S1x128 x4 shapeCasts_S128_S1x128) broadcasts_S1x128_S5000x128 (ix2 p q) = x4 (ix1 q) := by
  rw [broadcastTo_apply _ broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])]
  rw [shapeCast_addUnit_apply ![128] x4 shapeCasts_S128_S1x128 (ix2 (0 : Fin 1) q)]
  exact congrArg x4 (funext fun a => match a with | ⟨0, _⟩ => rfl)

/-- What the body stores, at entry (p, q) of its block: the two contractions, added, plus the bias. -/
theorem stored_apply (x0 : Vec Ideal S5000x128 .f32) (x1 : Vec Ideal S5000x64 .f32) (x2 : Vec Ideal S128x128 .f32)
    (x3 : Vec Ideal S64x128 .f32) (x4 : Vec Ideal S128 .f32) (p : Fin 5000) (q : Fin 128) :
    k1_pay1 (F := Ideal) x0 x1 x2 x3 x4 (ix2 p q)
      = FloatOps.addf (FloatOps.addf (∑ k : Fin 128, x0 (ix2 p k) * x2 (ix2 k q)) (∑ k : Fin 64, x1 (ix2 p k) * x3 (ix2 k q))) (x4 (ix1 q)) := by
  unfold k1_pay1
  rw [shapeCast_self x1, shapeCast_self x2, shapeCast_self x3]
  refine congrArg₂ FloatOps.addf (congrArg₂ FloatOps.addf ?_ ?_) ?_
  · exact Cert.PlainDot.matmul_zero_apply (M := 5000) (K := 128) (N := 128) dot_S5000x128_S128x128_S5000x128_1_0_0_1_n_n rfl none x0 x2 (ix2 p q)
  · exact Cert.PlainDot.matmul_zero_apply (M := 5000) (K := 64) (N := 128) dot_S5000x64_S64x128_S5000x128_1_0_0_1_n_n rfl none x1 x3 (ix2 p q)
  · exact bias_row x4 p q

/-- A block whose rows are rows r of the self features and of the aggregate, with both weight blocks and the bias
    whole, stores the dense output of row r. -/
theorem stored_eq_neigh (S : FVec Ideal S100000x128 .f32) (A : FVec Ideal S100000x64 .f32) (W1 : FVec Ideal S128x128 .f32)
    (W2 : FVec Ideal S64x128 .f32) (B : FVec Ideal S128 .f32)
    (x0 : Vec Ideal S5000x128 .f32) (x1 : Vec Ideal S5000x64 .f32) (x2 : Vec Ideal S128x128 .f32)
    (x3 : Vec Ideal S64x128 .f32) (x4 : Vec Ideal S128 .f32)
    (r : Fin 100000) (p : Fin 5000) (q : Fin 128)
    (h0 : ∀ k : Fin 128, x0 (ix2 p k) = S (ix2 r k)) (h1 : ∀ k : Fin 64, x1 (ix2 p k) = A (ix2 r k))
    (h2 : ∀ k : Fin 128, x2 (ix2 k q) = W1 (ix2 k q)) (h3 : ∀ k : Fin 64, x3 (ix2 k q) = W2 (ix2 k q))
    (h4 : x4 (ix1 q) = B (ix1 q)) :
    k1_pay1 (F := Ideal) x0 x1 x2 x3 x4 (ix2 p q) = neigh S A W1 W2 B (ix2 r q) := by
  rw [stored_apply]
  show _ = FloatOps.addf (FloatOps.addf (∑ k : Fin 128, S (ix2 r k) * W1 (ix2 k q)) (∑ k : Fin 64, A (ix2 r k) * W2 (ix2 k q))) (B (ix1 q))
  rw [h4]
  refine congrArg₂ FloatOps.addf (congrArg₂ FloatOps.addf (Finset.sum_congr rfl fun k _ => ?_) (Finset.sum_congr rfl fun k _ => ?_)) rfl
  · rw [h0 k, h2 k]
  · rw [h1 k, h3 k]

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two feature windows and the result window sit at block row t, the
    weight blocks and the bias at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- WHAT POINT t WRITES BACK is block t of the dense output of the arrays the region was entered with. -/
theorem flushed_eq (c : Dev nD) (t : Fin cfg1.N) :
    (dat1 V c).flushed 5 t = ((cfg1.win 5).blk t).view.read (Elt Ideal)
      (neigh (V c main_arg1) (V c main_v24) (V c main_v25) (V c main_v26) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S5000x64) hz2, View.ld_unit_zero (S := S128x128) hz2,
    View.ld_unit_zero (S := S64x128) hz2, View.ld_unit_zero (S := S128) hz1]
  obtain ⟨e00, e01, e10, e11, e20, e21, e30, e31, e40, e50, e51⟩ := idx_facts t
  have ht : t.val < 20 := t.isLt
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hemb : ((cfg1.win 5).blk t).view.emb (ix2 p q) = ix2 (⟨t.val * 5000 + p.val, by omega⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = neigh (V c main_arg1) (V c main_v24) (V c main_v25) (V c main_v26) (V c main_arg7) (((cfg1.win 5).blk t).view.emb (ix2 p q))
  rw [hemb]
  refine stored_eq_neigh (V c main_arg1) (V c main_v24) (V c main_v25) (V c main_v26) (V c main_arg7) _ _ _ _ _
    ⟨t.val * 5000 + p.val, by omega⟩ p q ?_ ?_ ?_ ?_ ?_
  · intro k
    show V c main_arg1 (((cfg1.win 0).blk t).view.emb (ix2 p k)) = V c main_arg1 (ix2 (⟨t.val * 5000 + p.val, by omega⟩ : Fin 100000) k)
    refine congrArg (V c main_arg1) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v24 (((cfg1.win 1).blk t).view.emb (ix2 p k)) = V c main_v24 (ix2 (⟨t.val * 5000 + p.val, by omega⟩ : Fin 100000) k)
    refine congrArg (V c main_v24) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  · intro k
    show V c main_v25 (((cfg1.win 2).blk t).view.emb (ix2 k q)) = V c main_v25 (ix2 k q)
    refine congrArg (V c main_v25) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro k
    show V c main_v26 (((cfg1.win 3).blk t).view.emb (ix2 k q)) = V c main_v26 (ix2 k q)
    refine congrArg (V c main_v26) (funext fun a => Fin.ext ?_)
    match a with
    | ⟨0, _⟩ => show win1_3.index t (0 : Fin 2) * 64 + 1 * k.val = k.val; omega
    | ⟨1, _⟩ => show win1_3.index t (1 : Fin 2) * 128 + 1 * q.val = q.val; omega
  · show V c main_arg7 (((cfg1.win 4).blk t).view.emb (ix1 q)) = V c main_arg7 (ix1 q)
    refine congrArg (V c main_arg7) (funext fun a => Fin.ext ?_)
    match a with
    | ⟨0, _⟩ => show win1_4.index t (0 : Fin 1) * 128 + 1 * q.val = q.val; omega

/-- An index of the result array is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v27).slice (win1_5.rect t)).set ↔ _
  rw [View.set_slice_whole, Rect.mem_set_unit]
  exact Iff.rfl

/-- The 20 blocks of 5000 rows tile the result: row r lies in block r / 5000. -/
theorem covered (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 5000, by show (i 0).val / 5000 < 20; omega⟩
  obtain ⟨-, -, -, -, -, -, -, -, -, e50, e51⟩ := idx_facts t
  have etv : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY after the region: the dense output of the arrays the region was entered with. -/
theorem neigh_array (c : Dev nD) :
    (dat1 V c).arrAt 5 cfg1.N = neigh (V c main_arg1) (V c main_v24) (V c main_v25) (V c main_v26) (V c main_arg7) :=
  (dat1 V c).arrAt_eq_of_cover 5 _ (fun t _ => flushed_eq V c t) covered

end Cert.KernelIdeal.NeighValue

end
-- ==== Proof.KernelValue.lean ====
/-
  The whole kernel program read as one function of its eight arguments. Between the two dense stages the program
  runs, on the host, the sparse part of the layer: it counts how often each node occurs as a source, gathers the
  pooled features and the counts along the source indices (a negative index is first moved up by the table's
  length), divides, and adds the quotients up along the destination indices. That chain is carried here as ONE
  function `agg` of the pooled features and the two index vectors and is never opened: the reference applies the very
  same operations. The upper 128 and the lower 64 rows of the weight matrix are cut out by two slices. So the
  program's result is

      kout = neigh h_self (agg (pool h W_pool b_pool) dst src) (rows 0..127 of W) (rows 128..191 of W) b_neigh,

  by reading each stage's result array (the two modules on the dense stages) and the host operations' results in turn.
-/
import proofs.«102712_j128849019138_1_alg».proof.Proof.Gen.KernelIdeal.Frame
import proofs.«102712_j128849019138_1_alg».proof.Proof.PoolValue
import proofs.«102712_j128849019138_1_alg».proof.Proof.NeighValue
import proofs.«102712_j128849019138_1_alg».proof.Proof.KernelRun
import Idealize.ShloMosaic.Lib.StableHlo.Run
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Cert.KernelIdeal.PoolValue Cert.KernelIdeal.NeighValue

/-- The source index as the gathers take it: an index below zero is moved up by the table's 100000 rows. -/
def wrapped (src : (⟨S1600000, .i32⟩ : BufTy).Contents (Elt Ideal)) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The sparse part of the layer: per edge the pooled features of its source divided by the source's number of
    occurrences, added up per destination. -/
def agg (hp : (⟨S100000x64, .f32⟩ : BufTy).Contents (Elt Ideal)) (dst src : (⟨S1600000, .i32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.divf (F := Ideal)
      (Host.gather gather_S100000x64_S1600000x1_S1600000x64_1_0_n_n_0_1_164 hp (wrapped src))
      (broadcastInDim S1600000x64 ![0, 1] bcast_S1600000x1_S1600000x64_0_1
        (broadcastInDim S1600000x1 ![0] bcast_S1600000_S1600000x1_0
          (Host.gather gather_S100000_S1600000x1_S1600000_n_0_n_n_0_1_1
            (Host.scatterAdd (F := Ideal) scatter_S100000_S1600000x1_S1600000_n_0_0_1
              (broadcastInDim S100000 ![] bcast_S_S100000 (constant (F := Ideal) S_ .f32 0x00000000#32))
              (broadcastInDim S1600000x1 ![0] bcast_S1600000_S1600000x1_0 src)
              (broadcastInDim S1600000 ![] bcast_S_S1600000 (constant (F := Ideal) S_ .f32 0x3F800000#32)))
            (wrapped src)))))

/-- The upper 128 rows of the weight matrix. -/
def upper (w : (⟨S192x128, .f32⟩ : BufTy).Contents (Elt Ideal)) : (⟨S128x128, .f32⟩ : BufTy).Contents (Elt Ideal) :=
  extractStridedSlice S128x128 ![0, 0] w slices_S192x128_S128x128_0_0
/-- The lower 64 rows of the weight matrix. -/
def lower (w : (⟨S192x128, .f32⟩ : BufTy).Contents (Elt Ideal)) : (⟨S64x128, .f32⟩ : BufTy).Contents (Elt Ideal) :=
  extractStridedSlice S64x128 ![128, 0] w slices_S192x128_S64x128_128_0

/-- The program's result as one function of its arguments. -/
def kout (x0 x1 : FVec Ideal S100000x128 .f32) (x2 x3 : (⟨S1600000, .i32⟩ : BufTy).Contents (Elt Ideal))
    (x4 : FVec Ideal S128x64 .f32) (x5 : FVec Ideal S64 .f32) (x6 : FVec Ideal S192x128 .f32) (x7 : FVec Ideal S128 .f32) :
    FVec Ideal S100000x128 .f32 :=
  neigh x1 (agg (pool x0 x4 x5) x2 x3) (upper x6) (lower x6) x7

variable (m : (ℓ : Loc nD τ sig) → Buf (Elt Ideal) ℓ) (ρ : Dev nD → PrngReg)

/-! ## What the second stage is entered with: the host operations' results over the first stage's exit contents -/

set_option maxHeartbeats 2000000 in
theorem entry_agg (c : Dev nD) : V2 m ρ c main_v24
    = agg (W1 m ρ c (Proc.devRef .tc main_v0)) (W1 m ρ c (Proc.devRef .tc main_arg2)) (W1 m ρ c (Proc.devRef .tc main_arg3)) := by
  show StableHlo.after hostOps1 (W1 m ρ c) (Proc.devRef .tc main_v24) = _
  after_results_simp
  rfl

set_option maxHeartbeats 2000000 in
theorem entry_upper (c : Dev nD) : V2 m ρ c main_v25 = upper (W1 m ρ c (Proc.devRef .tc main_arg6)) := by
  show StableHlo.after hostOps1 (W1 m ρ c) (Proc.devRef .tc main_v25) = _
  after_results_simp
  rfl

set_option maxHeartbeats 2000000 in
theorem entry_lower (c : Dev nD) : V2 m ρ c main_v26 = lower (W1 m ρ c (Proc.devRef .tc main_arg6)) := by
  show StableHlo.after hostOps1 (W1 m ρ c) (Proc.devRef .tc main_v26) = _
  after_results_simp
  rfl

set_option maxHeartbeats 2000000 in
theorem entry_self (c : Dev nD) : V2 m ρ c main_arg1 = W1 m ρ c (Proc.devRef .tc main_arg1) := by
  show StableHlo.after hostOps1 (W1 m ρ c) (Proc.devRef .tc main_arg1) = _
  after_results_simp

set_option maxHeartbeats 2000000 in
theorem entry_bias (c : Dev nD) : V2 m ρ c main_arg7 = W1 m ρ c (Proc.devRef .tc main_arg7) := by
  show StableHlo.after hostOps1 (W1 m ρ c) (Proc.devRef .tc main_arg7) = _
  after_results_simp

/-! ## What the first stage leaves -/

theorem exit_pool (c : Dev nD) : W1 m ρ c (Proc.devRef .tc main_v0)
    = pool (m ((c : Thread nD τ).loc main_arg0)) (m ((c : Thread nD τ).loc main_arg4)) (m ((c : Thread nD τ).loc main_arg5)) :=
  (W1_arr m ρ c 3).trans (pool_array (V0 m ρ) c)

theorem exit_arg1 (c : Dev nD) : W1 m ρ c (Proc.devRef .tc main_arg1) = m ((c : Thread nD τ).loc main_arg1) := W1_of_ne m ρ c main_arg1 (by decide)
theorem exit_arg2 (c : Dev nD) : W1 m ρ c (Proc.devRef .tc main_arg2) = m ((c : Thread nD τ).loc main_arg2) := W1_of_ne m ρ c main_arg2 (by decide)
theorem exit_arg3 (c : Dev nD) : W1 m ρ c (Proc.devRef .tc main_arg3) = m ((c : Thread nD τ).loc main_arg3) := W1_of_ne m ρ c main_arg3 (by decide)
theorem exit_arg6 (c : Dev nD) : W1 m ρ c (Proc.devRef .tc main_arg6) = m ((c : Thread nD τ).loc main_arg6) := W1_of_ne m ρ c main_arg6 (by decide)
theorem exit_arg7 (c : Dev nD) : W1 m ρ c (Proc.devRef .tc main_arg7) = m ((c : Thread nD τ).loc main_arg7) := W1_of_ne m ρ c main_arg7 (by decide)

/-! ## The result -/

/-- The result array at the last boundary is `kout` of the launch contents of the arguments. -/
theorem result_eq (c : Dev nD) : W3 m ρ c (Proc.devRef .tc main_v27)
    = kout (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W3_arr m ρ c 5).trans ((neigh_array (V2 m ρ) c).trans ?_)
  rw [entry_self m ρ c, entry_agg m ρ c, entry_upper m ρ c, entry_lower m ρ c, entry_bias m ρ c,
    exit_pool m ρ c, exit_arg1 m ρ c, exit_arg2 m ρ c, exit_arg3 m ρ c, exit_arg6 m ρ c, exit_arg7 m ρ c]
  rfl

/-- The kernel program's run with its result read: every weakly fair execution ends, nothing faulting, with the result
    array at `kout` of the arguments and the arguments as launched. -/
theorem run : θ_run defs (onTc (τ := τ) (main (F := Ideal))) ⟨m, fun _ => 0, ρ⟩ (fun r => ∀ c : Dev nD,
      r.2.mem ((c.tc : Thread nD τ).loc main_v27)
        = kout (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Run.run_named m ρ)

end Cert.KernelIdeal.KValue

end
-- ==== Proof.SplitSum.lean ====
/-
  The one law that joins the two programs. The reference contracts the 192 columns of the joined array (128 self
  features, then 64 aggregated ones) against the 192 rows of the weight matrix in one sum; the kernel contracts the
  first 128 and the last 64 separately and adds. A sum over Fin (128 + 64) is the sum over its first 128 indices plus
  the sum over its last 64: this holds in any additive commutative monoid, so on the extended reals it needs no
  finiteness of the entries.
-/
import Idealize.ShloMosaic.PureOps.Ideal.Laws
import Idealize.ShloMosaic.Lib.ValueIdx
import Mathlib.Algebra.BigOperators.Fin

noncomputable section

open scoped BigOperators

namespace Cert.SplitSum

open Idealize.ShloMosaic Idealize.ShloMosaic.ValueIdx

/-- Row r of a joined array against column q of the weights, split where the join is: if the joined array reads
    `s` on its first 128 columns and `a` on its last 64, and the weights read `w1` on their first 128 rows and `w2` on
    their last 64, the contraction over all 192 is the sum of the two partial contractions. -/
theorem contraction_split (cat : (⟨2, ![100000, 192]⟩ : Shape).Idx → EReal) (s : (⟨2, ![100000, 128]⟩ : Shape).Idx → EReal)
    (a : (⟨2, ![100000, 64]⟩ : Shape).Idx → EReal) (w : (⟨2, ![192, 128]⟩ : Shape).Idx → EReal)
    (w1 : (⟨2, ![128, 128]⟩ : Shape).Idx → EReal) (w2 : (⟨2, ![64, 128]⟩ : Shape).Idx → EReal)
    (r : Fin 100000) (q : Fin 128)
    (hs : ∀ k : Fin 128, cat (ix2 r (Fin.castAdd 64 k : Fin 192)) = s (ix2 r k))
    (ha : ∀ k : Fin 64, cat (ix2 r (Fin.natAdd 128 k : Fin 192)) = a (ix2 r k))
    (h1 : ∀ k : Fin 128, w (ix2 (Fin.castAdd 64 k : Fin 192) q) = w1 (ix2 k q))
    (h2 : ∀ k : Fin 64, w (ix2 (Fin.natAdd 128 k : Fin 192) q) = w2 (ix2 k q)) :
    ∑ k : Fin 192, cat (ix2 r k) * w (ix2 k q)
      = (∑ k : Fin 128, s (ix2 r k) * w1 (ix2 k q)) + ∑ k : Fin 64, a (ix2 r k) * w2 (ix2 k q) := by
  rw [Fin.sum_univ_add (a := 128) (b := 64) (fun k : Fin 192 => cat (ix2 r k) * w (ix2 k q))]
  refine congrArg₂ (· + ·) (Finset.sum_congr rfl fun k _ => ?_) (Finset.sum_congr rfl fun k _ => ?_)
  · show cat (ix2 r (Fin.castAdd 64 k : Fin 192)) * w (ix2 (Fin.castAdd 64 k : Fin 192) q) = _
    rw [hs k, h1 k]
  · show cat (ix2 r (Fin.natAdd 128 k : Fin 192)) * w (ix2 (Fin.natAdd 128 k : Fin 192) q) = _
    rw [ha k, h2 k]

end Cert.SplitSum

end
-- ==== Proof.Bridge.lean ====
/-
  The reference computes the kernel program's function. Stage by stage:
  the reference's first product, bias and clamp are `pool` of (h, W_pool, b_pool) — a host contraction over the 128
  input features is the same exact sum as the kernel's matrix unit's; the sparse part (count, two gathers, quotient,
  scatter-add) is the very chain of operations the kernel program runs on the host, so it is `agg` of those pooled
  features and never opened; and the last stage contracts the 192 columns of the joined array [h_self | agg] against
  the 192 rows of W_neigh in ONE sum, which is the kernel's sum over the first 128 columns (against the upper rows of
  W_neigh) plus its sum over the last 64 (against the lower rows), the bias added last on both sides.
-/
import proofs.«102712_j128849019138_1_alg».proof.Proof.KernelValue
import proofs.«102712_j128849019138_1_alg».proof.Proof.SplitSum
import proofs.«102712_j128849019138_1_alg».proof.Proof.LibPlainDot
import proofs.«102712_j128849019138_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.ShloMosaic.ValueIdx Idealize.SL.Sem
open Cert.KernelIdeal.PoolValue Cert.KernelIdeal.NeighValue Cert.KernelIdeal.KValue
open scoped BigOperators

open Cert.ReferenceIdeal.Read

abbrev Nodes128 : Shape := ⟨2, ![100000, 128]⟩
abbrev Nodes64 : Shape := ⟨2, ![100000, 64]⟩
abbrev Edges : Shape := ⟨1, ![1600000]⟩

variable (x0 x1 : FVec Ideal Nodes128 .f32) (x2 x3 : (⟨Edges, .i32⟩ : BufTy).Contents (Elt Ideal))
  (x4 : FVec Ideal ⟨2, ![128, 64]⟩ .f32) (x5 : FVec Ideal ⟨1, ![64]⟩ .f32)
  (x6 : FVec Ideal ⟨2, ![192, 128]⟩ .f32) (x7 : FVec Ideal ⟨1, ![128]⟩ .f32)

/-- The reference's pooled features are the kernel's. -/
theorem ref_pool : val_main_v4 (F := Ideal) x0 x4 x5 = pool x0 x4 x5 := by
  funext i
  obtain ⟨r, q, rfl⟩ : ∃ (r : Fin 100000) (q : Fin 64), i = ix2 r q := ⟨i 0, i 1, eq_ix2 i⟩
  rw [val_main_v4_apply, val_main_v3_apply, val_main_v2_apply, val_main_v1_apply, val_main_call0_v0_apply,
    val_main_call0_cst_apply]
  refine congrArg₂ FloatOps.maximumf (congrArg₂ FloatOps.addf ?_ ?_) rfl
  · unfold Cert.ReferenceIdeal.Read.val_main_v0
    simp only [Host.dotGeneral]
    exact Cert.PlainDot.dotGeneral_apply (M := 100000) (K := 128) (N := 64) Cert.ReferenceIdeal.dot_S100000x128_S128x64_S100000x64_1_0_0_1_n_n rfl _ _ x0 x4 (ix2 r q)
  · exact congrArg x5 (funext fun a => match a with | ⟨0, _⟩ => rfl)

/-- The reference's aggregate is the kernel program's host chain applied to the reference's pooled features. -/
theorem ref_agg : val_main_v28 (F := Ideal) x0 x2 x3 x4 x5 = agg (val_main_v4 (F := Ideal) x0 x4 x5) x2 x3 := rfl

/-- The reference's result is the kernel program's function of the arguments. -/
theorem ref_eq_kout : val_main_v33 (F := Ideal) x0 x1 x2 x3 x4 x5 x6 x7 = kout x0 x1 x2 x3 x4 x5 x6 x7 := by
  funext i
  obtain ⟨r, q, rfl⟩ : ∃ (r : Fin 100000) (q : Fin 128), i = ix2 r q := ⟨i 0, i 1, eq_ix2 i⟩
  rw [val_main_v33_apply, val_main_v30_apply, val_main_v32_apply, val_main_v31_apply]
  have hk : kout x0 x1 x2 x3 x4 x5 x6 x7 (ix2 r q)
      = ((∑ k : Fin 128, x1 (ix2 r k) * (upper x6 : FVec Ideal ⟨2, ![128, 128]⟩ .f32) (ix2 k q))
          + ∑ k : Fin 64, (agg (pool x0 x4 x5) x2 x3 : FVec Ideal Nodes64 .f32) (ix2 r k) * (lower x6 : FVec Ideal ⟨2, ![64, 128]⟩ .f32) (ix2 k q))
        + x7 (ix1 q) := rfl
  rw [hk]
  refine congrArg₂ (· + ·) ?_ (congrArg x7 (funext fun a => match a with | ⟨0, _⟩ => rfl))
  have hl : ∀ k : Fin 192, lidx_main_v30 (ix2 r q) k = ix2 r k := fun k => funext fun a => match a with | ⟨0, _⟩ => rfl | ⟨1, _⟩ => rfl
  have hr : ∀ k : Fin 192, ridx_main_v30 (ix2 r q) k = ix2 k q := fun k => funext fun a => match a with | ⟨0, _⟩ => rfl | ⟨1, _⟩ => rfl
  simp only [hl, hr]
  refine Cert.SplitSum.contraction_split _ x1 (agg (pool x0 x4 x5) x2 x3) x6 (upper x6) (lower x6) r q ?_ ?_ ?_ ?_
  · intro k
    unfold Cert.ReferenceIdeal.Read.val_main_v29
    exact concatenate_pair_apply_left (t := Cert.ReferenceIdeal.S100000x192) (s₁ := Cert.ReferenceIdeal.S100000x128) (s₂ := Cert.ReferenceIdeal.S100000x64) (1 : Fin 2) x1 _ _ (ix2 r (Fin.castAdd 64 k : Fin 192)) rfl (ix2 r k)
      (fun b => match b with | ⟨0, _⟩ => rfl | ⟨1, _⟩ => rfl)
  · intro k
    unfold Cert.ReferenceIdeal.Read.val_main_v29
    rw [ref_agg, ref_pool]
    exact concatenate_pair_apply_right (t := Cert.ReferenceIdeal.S100000x192) (s₁ := Cert.ReferenceIdeal.S100000x128) (s₂ := Cert.ReferenceIdeal.S100000x64) (1 : Fin 2) x1 _ _ (ix2 r (Fin.natAdd 128 k : Fin 192)) rfl rfl (ix2 r k)
      (fun b hb => match b with | ⟨0, _⟩ => rfl | ⟨1, _⟩ => absurd rfl hb)
      (by show k.val + 128 = 128 + k.val; omega)
  · intro k
    exact (extractStridedSlice_apply ![0, 0] x6 _ (ix2 k q) (ix2 (Fin.castAdd 64 k : Fin 192) q)
      (fun a => match a with | ⟨0, _⟩ => by show k.val = 0 + k.val; omega | ⟨1, _⟩ => by show q.val = 0 + q.val; omega)).symm
  · intro k
    exact (extractStridedSlice_apply ![128, 0] x6 _ (ix2 k q) (ix2 (Fin.natAdd 128 k : Fin 192) q)
      (fun a => match a with | ⟨0, _⟩ => by show 128 + k.val = 128 + k.val; rfl | ⟨1, _⟩ => by show q.val = 0 + q.val; omega)).symm

end Cert.Bridge

end
-- ==== Proof.lean ====
/-
  A GraphSAGE layer with pooled neighbour features, two dense stages around a sparse one:

      hp  = max (h · W_pool + b_pool) 0                         (per source node, 64 pooled features)
      agg = for every destination, the sum over its incoming edges of hp[src] / (number of edges leaving src)
      out = [h_self | agg] · W_neigh + b_neigh                  (per destination node, 128 features)

  The kernel program computes hp and out in two blocked matrix kernels (20 blocks of 5000 rows each, the factors
  narrowed to bf16, the sums kept in f32) and the sparse middle on the host; for out it multiplies h_self with the
  upper 128 rows of W_neigh and agg with the lower 64 and adds, instead of joining the two arrays first.
  Over the extended reals, where a change of float format is the identity and every contraction is the exact sum:
  each kernel block is the restriction of one function of whole arrays and the blocks tile the result
  (Proof/PoolValue.lean, Proof/NeighValue.lean); the sparse middle is the same chain of host operations in both
  programs and is carried as one function (Proof/KernelValue.lean); and the reference's single contraction over the 192
  joined columns is the kernel's sum of two contractions, because a sum over 128 + 64 indices splits at 128
  (Proof/SplitSum.lean, Proof/Bridge.lean) — a law of addition alone, so no input needs to be finite for it.
  The three frames are the generated ones (the reference's is its generated run with the result dropped), and the
  kernel's idealization rewrote nothing, so `preserves` has nothing to state.
-/
import proofs.«102712_j128849019138_1_alg».proof.Defs
import proofs.«102712_j128849019138_1_alg».proof.Proof.Gen.Kernel
import proofs.«102712_j128849019138_1_alg».proof.Proof.Gen.Kernel.Skeleton
import proofs.«102712_j128849019138_1_alg».proof.Proof.Gen.Kernel.Launch
import proofs.«102712_j128849019138_1_alg».proof.Proof.Gen.Kernel.Points
import proofs.«102712_j128849019138_1_alg».proof.Proof.Gen.Kernel.Frame
import proofs.«102712_j128849019138_1_alg».proof.Proof.Gen.KernelIdeal
import proofs.«102712_j128849019138_1_alg».proof.Proof.Gen.KernelIdeal.Skeleton
import proofs.«102712_j128849019138_1_alg».proof.Proof.Gen.KernelIdeal.Launch
import proofs.«102712_j128849019138_1_alg».proof.Proof.Gen.KernelIdeal.Points
import proofs.«102712_j128849019138_1_alg».proof.Proof.Gen.KernelIdeal.Frame
import proofs.«102712_j128849019138_1_alg».proof.Proof.Gen.ReferenceIdeal
import proofs.«102712_j128849019138_1_alg».proof.Proof.Gen.Pre_finite_inputs
import proofs.«102712_j128849019138_1_alg».proof.Proof.Gen.ReferenceIdeal.Run
import proofs.«102712_j128849019138_1_alg».proof.Proof.Gen.ReferenceIdeal.Read
import proofs.«102712_j128849019138_1_alg».proof.Proof.KernelValue
import proofs.«102712_j128849019138_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer's output of the arguments: the kernel program's result array is `kout` of its
    arguments, the reference's is the same function of its own, and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq (F := Ideal) _ _ _ _ _ _ _ _).trans ?_
  rw [Cert.Bridge.ref_eq_kout]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
